-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S4x2048x1024 .f32) (main_arg1 : FVec F S8x1024x2048 .f32) (main_arg2 : FVec F S8x2048 .f32) (main_arg3 : FVec F S8x2048x1024 .f32) (main_arg4 : FVec F S8x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_arg4 main_v13 main_v16
-- ==== Kernel.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S8x1024x1024 : Shape := ⟨3, ![8, 1024, 1024]⟩
abbrev S8x1x2048 : Shape := ⟨3, ![8, 1, 2048]⟩
abbrev S8x1x1024 : Shape := ⟨3, ![8, 1, 1024]⟩
abbrev S1x1024x1024 : Shape := ⟨3, ![1, 1024, 1024]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S2x1024x2048 : Shape := ⟨3, ![2, 1024, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩
abbrev S1x2048 : Shape := ⟨2, ![1, 2048]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S8x1024x2048, .f32⟩
  | .hbm, ⟨2, _⟩ => ⟨S8x2048, .f32⟩
  | .hbm, ⟨3, _⟩ => ⟨S8x2048x1024, .f32⟩
  | .hbm, ⟨4, _⟩ => ⟨S8x1024, .f32⟩
  | .hbm, ⟨5, _⟩ => ⟨S8x1024x1024, .f32⟩
  | .hbm, ⟨6, _⟩ => ⟨S8x1024x1024, .bf16⟩
  | .hbm, ⟨7, _⟩ => ⟨S8x1024x2048, .bf16⟩
  | .hbm, ⟨8, _⟩ => ⟨S8x2048x1024, .bf16⟩
  | .hbm, ⟨9, _⟩ => ⟨S8x1x2048, .f32⟩
  | .hbm, ⟨10, _⟩ => ⟨S8x1x1024, .f32⟩
  | .hbm, ⟨11, _⟩ => ⟨S8x1024x1024, .f32⟩
  | .hbm, ⟨12, _⟩ => ⟨S4x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S2x1024x2048, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.addi arg0 c1_i32
  let c2_i32 : BitVec 32 := 2#32
  let v7 : BitVec 32 := Scalar.remsi v6 c2_i32
  let v8 : Index := Scalar.indexCast v7
  let c0 : Index := 0#32
  let c0_2 : Index := 0#32
  ![v8.toNat, 0, 0]
def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c2_i32 : BitVec 32 := 2#32
  let v18 : BitVec 32 := Scalar.remsi arg0 c2_i32
  let v19 : Index := Scalar.indexCast v18
  let c0_11 : Index := 0#32
  let c0_12 : Index := 0#32
  ![v19.toNat, 0, 0]
def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1024_S8x1024x1024 : S4x2048x1024.ShapeCasts S8x1024x1024
  bitsLt_bf16_f32 : FTy.bits .bf16 < FTy.bits .f32
  shapeCasts_S8x2048_S8x1x2048 : S8x2048.ShapeCasts S8x1x2048
  shapeCasts_S8x1024_S8x1x1024 : S8x1024.ShapeCasts S8x1x1024
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x2048_S1x1024x2048_0_0_0 : ∀ a, (![0, 0, 0] : Fin 3 → Nat) a + S1x1024x2048.size a ≤ S1x1024x2048.size a
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S1024x2048 : S1x2048.Broadcasts S1024x2048
  shapeCasts_S1024x2048_S1x1024x2048 : S1024x2048.ShapeCasts S1x1024x2048
  shapeCasts_S8x1024x1024_S4x2048x1024 : S8x1024x1024.ShapeCasts S4x2048x1024
  dot_S1024x2048_S2048x1024_S1024x1024_1_0_0_1_n_n_wf : DotDims.WF S1024x2048 S2048x1024 S1024x1024 [1] [0] [0] [1] [] []
  dot_S1024x1024_S1024x2048_S1024x2048_1_0_0_1_n_n_wf : DotDims.WF S1024x1024 S1024x2048 S1024x2048 [1] [0] [0] [1] [] []
  hrank0 : 0 < grid0.rank
  k0_off1_inb : ∀ i : grid0.Coords, ∀ (k0_h1 : k0_cond1 i = 1#1), ∀ a, (k0_off1 i) a + S1x1024x2048.size a ≤ S2x1024x2048.size a
  k0_off2_inb : ∀ i : grid0.Coords, ∀ (k0_h2 : k0_cond2 i = 1#1), ∀ a, (k0_off2 i) a + S1x1024x2048.size a ≤ S2x1024x2048.size a
  k0_off2_packedbf16 : ∀ i : grid0.Coords, ∀ (k0_h2 : k0_cond2 i = 1#1), (Rect.unit (s := S2x1024x2048) (k0_off2 i) S1x1024x2048.size (k0_off2_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .bf16 = 32 ∨ (Rect.block (s := S8x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .bf16 = 32 ∨ (Rect.block (s := S8x1024x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .bf16 = 32 ∨ (Rect.block (s := S8x2048x1024) S1x2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x1024x1024.size a
  hwx0_5 : ∀ i : grid0.Coords, EltTy.bits .f32 = 32 ∨ (Rect.block (s := S8x1024x1024) S1x1024x1024.size (cc0_transform_5 i) (hinb0_5 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S8192x1024 : Shape := ⟨2, ![8192, 1024]⟩
abbrev S8x1024x1024 : Shape := ⟨3, ![8, 1024, 1024]⟩
abbrev S8x1x2048 : Shape := ⟨3, ![8, 1, 2048]⟩
abbrev S_ : Shape := ⟨0, ![]⟩
abbrev S8x1x1024 : Shape := ⟨3, ![8, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8x1024x2048, .f32⟩
  | .hbm, ⟨2, _⟩ => ⟨S8x2048, .f32⟩
  | .hbm, ⟨3, _⟩ => ⟨S8x2048x1024, .f32⟩
  | .hbm, ⟨4, _⟩ => ⟨S8x1024, .f32⟩
  | .hbm, ⟨5, _⟩ => ⟨S8192x1024, .f32⟩
  | .hbm, ⟨6, _⟩ => ⟨S8x1024x1024, .f32⟩
  | .hbm, ⟨7, _⟩ => ⟨S8x1024x2048, .f32⟩
  | .hbm, ⟨8, _⟩ => ⟨S8x1x2048, .f32⟩
  | .hbm, ⟨9, _⟩ => ⟨S8x1024x2048, .f32⟩
  | .hbm, ⟨10, _⟩ => ⟨S8x1024x2048, .f32⟩
  | .hbm, ⟨11, _⟩ => ⟨S_, .f32⟩
  | .hbm, ⟨12, _⟩ => ⟨S8x1024x2048, .f32⟩
  | .hbm, ⟨13, _⟩ => ⟨S8x1024x2048, .f32⟩
  | .hbm, ⟨14, _⟩ => ⟨S8x1024x1024, .f32⟩
  | .hbm, ⟨15, _⟩ => ⟨S8x1x1024, .f32⟩
  | .hbm, ⟨16, _⟩ => ⟨S8x1024x1024, .f32⟩
  | .hbm, ⟨17, _⟩ => ⟨S8x1024x1024, .f32⟩
  | .hbm, ⟨18, _⟩ => ⟨S8192x1024, .f32⟩
  | .hbm, ⟨19, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S4x2048x1024_S8192x1024 : S4x2048x1024.ShapeCasts S8192x1024
  shapeCasts_S8192x1024_S8x1024x1024 : S8192x1024.ShapeCasts S8x1024x1024
  bcast_S8x2048_S8x1x2048_0_2 : S8x2048.BroadcastsInDim S8x1x2048 (![0, 2] : Fin 2 → Fin S8x1x2048.rank)
  bcast_S8x1x2048_S8x1024x2048_0_1_2 : S8x1x2048.BroadcastsInDim S8x1024x2048 (![0, 1, 2] : Fin 3 → Fin S8x1024x2048.rank)
  bcast_S_S8x1024x2048 : S_.BroadcastsInDim S8x1024x2048 (![] : Fin 0 → Fin S8x1024x2048.rank)
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  shapeCasts_S8x1024x1024_S8192x1024 : S8x1024x1024.ShapeCasts S8192x1024
  shapeCasts_S8192x1024_S4x2048x1024 : S8192x1024.ShapeCasts S4x2048x1024
  dot_S8x1024x1024_S8x1024x2048_S8x1024x2048_2_1_1_2_0_0_wf : DotDims.WF S8x1024x1024 S8x1024x2048 S8x1024x2048 [2] [1] [1] [2] [0] [0]
  dot_S8x1024x2048_S8x2048x1024_S8x1024x1024_2_1_1_2_0_0_wf : DotDims.WF S8x1024x2048 S8x2048x1024 S8x1024x1024 [2] [1] [1] [2] [0] [0]

variable [Facts₀]

def dot_S8x1024x1024_S8x1024x2048_S8x1024x2048_2_1_1_2_0_0 : DotDims S8x1024x1024 S8x1024x2048 S8x1024x2048 where
  lhsContracting := [2]
  rhsContracting := [1]
  lhsNonContracting := [1]
  rhsNonContracting := [2]
  lhsBatch := [0]
  rhsBatch := [0]
  wf := dot_S8x1024x1024_S8x1024x2048_S8x1024x2048_2_1_1_2_0_0_wf
def dot_S8x1024x2048_S8x2048x1024_S8x1024x1024_2_1_1_2_0_0 : DotDims S8x1024x2048 S8x2048x1024 S8x1024x1024 where
  lhsContracting := [2]
  rhsContracting := [1]
  lhsNonContracting := [1]
  rhsNonContracting := [2]
  lhsBatch := [0]
  rhsBatch := [0]
  wf := dot_S8x1024x2048_S8x2048x1024_S8x1024x1024_2_1_1_2_0_0_wf

class Facts : Prop extends Facts₀ where

variable [Facts]
-- ==== Proof.Body.lean ====
/-
  The frame of the expert-layer kernel, at any float instance.

  The kernel runs on a grid of nine points.  Point `t` runs the second layer of expert `t - 1` (for `1 ≤ t`) and the first
  layer of expert `t` (for `t < 8`); the hidden activations travel from one point to the next in a scratch of two halves,
  half `t % 2` written at point `t` and read back at point `t + 1`.  So the region's invariant after point `n` says what
  half `n % 2` of the scratch holds (the first layer's payload of the point's three input blocks), and the result's
  staging buffer after point `t ≥ 1` holds the second layer's payload of that half and the point's two other blocks.
  The body is run once per kind of point (first, middle, last); the library's frame run with a tracking invariant does
  the rest.
-/
import proofs.«159461_g12489764897382_cont_sun_c4_646_20_alg».proof.Proof.Gen.KernelIdeal.Frame
import proofs.«159461_g12489764897382_cont_sun_c4_646_20_alg».proof.Proof.Gen.KernelIdeal.Skeleton
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's nine points

Point `t` of the grid runs the second layer of expert `t - 1` (when `1 ≤ t`) on the hidden activations the point
before left in half `(t - 1) % 2` of the scratch, and then the first layer of expert `t` (when `t < 8`), whose
activations it leaves in half `t % 2`. -/

theorem hz3 : (![0, 0, 0] : Fin 3 → Nat) = fun _ => 0 := by
  funext a; match a with | ⟨0, _⟩ => rfl | ⟨1, _⟩ => rfl | ⟨2, _⟩ => rfl

/-- The second layer runs from point 1 on. -/
theorem hcond1 : ∀ t : Fin cfg0.N, k0_cond1 (grid0.coords t) = 1#1 ↔ 1 ≤ t.val :=
  (by decide +kernel : ∀ t : Fin grid0.N, k0_cond1 (grid0.coords t) = 1#1 ↔ 1 ≤ t.val)
/-- The first layer runs before point 8. -/
theorem hcond2 : ∀ t : Fin cfg0.N, k0_cond2 (grid0.coords t) = 1#1 ↔ t.val < 8 :=
  (by decide +kernel : ∀ t : Fin grid0.N, k0_cond2 (grid0.coords t) = 1#1 ↔ t.val < 8)
/-- The half of the scratch the second layer reads at point `t`. -/
theorem off1_eq : ∀ t : Fin cfg0.N, k0_off1 (grid0.coords t) = ![(t.val + 1) % 2, 0, 0] :=
  (by decide +kernel : ∀ t : Fin grid0.N, k0_off1 (grid0.coords t) = ![(t.val + 1) % 2, 0, 0])
/-- The half of the scratch the first layer fills at point `t`. -/
theorem off2_eq : ∀ t : Fin cfg0.N, k0_off2 (grid0.coords t) = ![t.val % 2, 0, 0] :=
  (by decide +kernel : ∀ t : Fin grid0.N, k0_off2 (grid0.coords t) = ![t.val % 2, 0, 0])

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The result window is idle at point 0 only (nothing is stored there), -/
theorem idleAt0_5 : ∀ t : Fin cfg0.N, cfg0.idle 5 (grid0.coords t) = decide (t.val = 0) :=
  (by decide +kernel : ∀ t : Fin grid0.N, cfg0.idle 5 (grid0.coords t) = decide (t.val = 0))
/-- and point 0 does not write it back: points 0 and 1 share block 0 of the result. -/
theorem noFlush0_5 : ∀ t : Fin cfg0.N, t.val = 0 → (cfg0.win 5).flush t = false :=
  (by decide +kernel : ∀ t : Fin grid0.N, t.val = 0 → (cfg0.win 5).flush t = false)

/-! ## The staging memrefs and the scratch -/

abbrev ms0_0 (t : Fin cfg0.N) : Memref sig .tc .vmem S1x1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .f32 := win0_5.stage (cfg0.slots t 5)
abbrev hs0_5 (t : Fin cfg0.N) : (ms0_5 t).IsWhole := hstage0_5 ((cfg0.slots t 5).cast nbuf0_5)
/-- The scratch: two halves of hidden activations. -/
abbrev scM0_0 : Memref sig .tc .vmem S2x1024x2048 .bf16 := Memref.whole cc0_scratch0

/-- The region's invariant before the first point: the scratch at anything, the generator register at anything. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- One half of the scratch, named by the offsets the body computes for it. -/
def slotOf (xs : Vec F S2x1024x2048 .bf16) (o : Fin 3 → Nat) (h : ∀ a, o a + S1x1024x2048.size a ≤ S2x1024x2048.size a) :
    Vec F S1x1024x2048 .bf16 :=
  View.ld xs (Rect.unit (s := S2x1024x2048) o S1x1024x2048.size h)

theorem slotOf_congr (xs : Vec F S2x1024x2048 .bf16) {o o' : Fin 3 → Nat} (e : o = o')
    (h : ∀ a, o a + S1x1024x2048.size a ≤ S2x1024x2048.size a) (h' : ∀ a, o' a + S1x1024x2048.size a ≤ S2x1024x2048.size a) :
    slotOf xs o h = slotOf xs o' h' := by subst e; rfl

theorem halfInb (n : ℕ) : ∀ a, (![n % 2, 0, 0] : Fin 3 → Nat) a + S1x1024x2048.size a ≤ S2x1024x2048.size a := fun a =>
  match a with
  | ⟨0, _⟩ => by show n % 2 + 1 ≤ 2; omega
  | ⟨1, _⟩ => by show 0 + 1024 ≤ 1024; omega
  | ⟨2, _⟩ => by show 0 + 2048 ≤ 2048; omega

/-- A half just stored reads back as what was stored, whatever the buffer held. -/
theorem slot_written {κ : Kind} {sp : Space} (v : View sig κ sp S2x1024x2048 .bf16) (f : v.ty.Contents (Elt F)) (o : Fin 3 → Nat)
    (h : ∀ a, o a + S1x1024x2048.size a ≤ S2x1024x2048.size a) (w : Vec F S1x1024x2048 .bf16) :
    slotOf (v.read (Elt F) (v.writes (Elt F) f [⟨Rect.unit (s := S2x1024x2048) o S1x1024x2048.size h, w⟩])) o h = w := by
  funext y
  exact View.read_writes_cons_emb v f (Rect.unit (s := S2x1024x2048) o S1x1024x2048.size h) w [] y

/-! ## The body's three runs

Stated on any whole staging memrefs: what the body is handed and what it hands back. -/

set_option maxHeartbeats 1000000 in
/-- Point 0: only the first layer runs. The result's buffer is not touched; the scratch, found at anything, is handed
    back with the half the point fills at the first layer's activations. -/
theorem runA (c : Dev nD) (i : grid0.Coords) (arg1 : Memref sig .tc .vmem S1x1024x1024 .bf16) (harg1 : arg1.IsWhole) (arg2 : Memref sig .tc .vmem S1x1024x2048 .bf16) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S2x1024x2048 .bf16) (harg7 : arg7.IsWhole) (hc0 : ¬k0_cond1 i = 1#1) (hc1 : k0_cond2 i = 1#1)
    (x0 : Vec F S1x1024x1024 .bf16) (x1 : Vec F S1x1024x2048 .bf16) (x2 : Vec F S1x1x2048 .f32) (x3 : Vec F S1x2048x1024 .bf16) (x4 : Vec F S1x1x1024 .f32)
    (x5 : Vec F S1x1024x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ xs', owns (c : Thread nD τ) arg7 fullShare xs' ∗ ⌜slotOf xs' (k0_off2 i) (k0_off2_inb i hc1) = k0_pay2 x0 x1 x2⌝)) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    iexists _
    isplitl [HS0]
    · iexists _; isplitr; swap; · iexact HS0
      ipureintro; rfl
    ipureintro
    refine (slot_written arg7.view fs0 (k0_off2 i) (k0_off2_inb i hc1) _).trans ?_
    simp only [View.readAt_eq_ld, harg1.read_unread, harg2.read_unread, harg3.read_unread,
      View.ld_unit_zero (S := S1x1024x1024) hz3, View.ld_unit_zero (S := S1x1024x2048) hz3, View.ld_unit_zero (S := S1x1x2048) hz3]

set_option maxHeartbeats 1000000 in
/-- Points 1 to 7: both layers run. The second layer reads the half of the scratch the point before filled and stores
    its result over the whole result buffer; the first layer then fills the other half. -/
theorem runB (c : Dev nD) (i : grid0.Coords) (arg1 : Memref sig .tc .vmem S1x1024x1024 .bf16) (harg1 : arg1.IsWhole) (arg2 : Memref sig .tc .vmem S1x1024x2048 .bf16) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S2x1024x2048 .bf16) (harg7 : arg7.IsWhole) (hc0 : k0_cond1 i = 1#1) (hc1 : k0_cond2 i = 1#1)
    (x0 : Vec F S1x1024x1024 .bf16) (x1 : Vec F S1x1024x2048 .bf16) (x2 : Vec F S1x1x2048 .f32) (x3 : Vec F S1x2048x1024 .bf16) (x4 : Vec F S1x1x1024 .f32) (xs : Vec F S2x1024x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (slotOf xs (k0_off1 i) (k0_off1_inb i hc0)) x3 x4)
                ∗ (∃ xs', owns (c : Thread nD τ) arg7 fullShare xs' ∗ ⌜slotOf xs' (k0_off2 i) (k0_off2_inb i hc1) = k0_pay2 x0 x1 x2⌝)) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz3 Facts₀.inb_S1x1024x1024_S1x1024x1024_0_0_0 y⟩), View.canon_unit_zero hz3]
      simp only [View.readAt_eq_ld, harg1.read_unread, harg2.read_unread, harg3.read_unread, harg4.read_unread, harg5.read_unread, harg7.read_unread,
      View.ld_unit_zero (S := S1x1024x1024) hz3, View.ld_unit_zero (S := S1x1024x2048) hz3, View.ld_unit_zero (S := S1x1x2048) hz3,
      View.ld_unit_zero (S := S1x2048x1024) hz3, View.ld_unit_zero (S := S1x1x1024) hz3]
      rfl
    iexists _
    isplitl [HS0]
    · iexists _; isplitr; swap; · iexact HS0
      ipureintro; rfl
    ipureintro
    refine (slot_written arg7.view _ (k0_off2 i) (k0_off2_inb i hc1) _).trans ?_
    simp only [View.readAt_eq_ld, harg1.read_unread, harg2.read_unread, harg3.read_unread, harg4.read_unread, harg5.read_unread, harg7.read_unread,
      View.ld_unit_zero (S := S1x1024x1024) hz3, View.ld_unit_zero (S := S1x1024x2048) hz3, View.ld_unit_zero (S := S1x1x2048) hz3,
      View.ld_unit_zero (S := S1x2048x1024) hz3, View.ld_unit_zero (S := S1x1x1024) hz3]

set_option maxHeartbeats 1000000 in
/-- Point 8: only the second layer runs, on the half point 7 filled; the scratch is handed back as found. -/
theorem runC (c : Dev nD) (i : grid0.Coords) (arg1 : Memref sig .tc .vmem S1x1024x1024 .bf16) (harg1 : arg1.IsWhole) (arg2 : Memref sig .tc .vmem S1x1024x2048 .bf16) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S2x1024x2048 .bf16) (harg7 : arg7.IsWhole) (hc0 : k0_cond1 i = 1#1) (hc1 : ¬k0_cond2 i = 1#1)
    (x0 : Vec F S1x1024x1024 .bf16) (x1 : Vec F S1x1024x2048 .bf16) (x2 : Vec F S1x1x2048 .f32) (x3 : Vec F S1x2048x1024 .bf16) (x4 : Vec F S1x1x1024 .f32) (xs : Vec F S2x1024x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (slotOf xs (k0_off1 i) (k0_off1_inb i hc0)) x3 x4)
                ∗ owns (c : Thread nD τ) arg7 fullShare xs) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz3 Facts₀.inb_S1x1024x1024_S1x1024x1024_0_0_0 y⟩), View.canon_unit_zero hz3]
      simp only [View.readAt_eq_ld, harg1.read_unread, harg2.read_unread, harg3.read_unread, harg4.read_unread, harg5.read_unread, harg7.read_unread,
      View.ld_unit_zero (S := S1x1024x1024) hz3, View.ld_unit_zero (S := S1x1024x2048) hz3, View.ld_unit_zero (S := S1x1x2048) hz3,
      View.ld_unit_zero (S := S1x2048x1024) hz3, View.ld_unit_zero (S := S1x1x1024) hz3]
      rfl
    iexists _; isplitr; · ipureintro; exact harg7.read_unread _
    iexact HS0

/-! ## What the scratch carries from point to point -/

/-- The first layer's activations of expert `n`: what point `n` leaves in half `n % 2` of the scratch. -/
def hvalAt (c : Dev nD) (n : ℕ) (hn : n < cfg0.N) : Vec F S1x1024x2048 .bf16 :=
  k0_pay2 (iblk m c 0 ⟨n, hn⟩) (iblk m c 1 ⟨n, hn⟩) (iblk m c 2 ⟨n, hn⟩)

/-- The region's invariant before position `n`: before the first point the scratch holds anything; after point `n`
    (for `n < 8`) its half `n % 2` holds expert `n`'s hidden activations, the other half anything. -/
def PhiS (c : Dev nD) : (n : ℕ) → n ≤ cfg0.N → sProp 𝕄
  | 0, _ => Pipeline.ΦA spec0 c
  | n + 1, hn => iprop(iprop(∃ xs, owns (c : Thread nD τ) scM0_0 fullShare xs
      ∗ ⌜n < 8 → slotOf xs ![n % 2, 0, 0] (halfInb n) = hvalAt m c n hn⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ xs, owns (c : Thread nD τ) scM0_0 fullShare xs
      ∗ ⌜n < 8 → slotOf xs ![n % 2, 0, 0] (halfInb n) = hvalAt m c n hn⌝) ∗ (∃ r, prngReg c r)) := rfl

theorem PhiS_pos (c : Dev nD) (n : ℕ) (h : n ≤ cfg0.N) (hz : n ≠ 0) :
    PhiS m c n h = iprop(iprop(∃ xs, owns (c : Thread nD τ) scM0_0 fullShare xs
      ∗ ⌜n - 1 < 8 → slotOf xs ![(n - 1) % 2, 0, 0] (halfInb (n - 1)) = hvalAt m c (n - 1) (by omega)⌝) ∗ (∃ r, prngReg c r)) := by
  cases n with
  | zero => exact absurd rfl hz
  | succ n => rfl

/-! ## The pipeline's proof data -/

/-- The proof data of the one pipeline on core `c`: the arrays as the region finds them; after the body at point `t`
    each input's buffer at its block and the result's buffer at the second layer of expert `t - 1` applied to that
    expert's hidden activations; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (hvalAt m c (t.val - 1) (Nat.lt_of_le_of_lt (Nat.sub_le _ _) t.isLt)) (iblk m c 3 t) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = k0_pay1 (hvalAt m c (t.val - 1) (Nat.lt_of_le_of_lt (Nat.sub_le _ _) t.isLt)) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's position decides which layers run; the
    invariant hands the second layer the hidden activations the point before left and takes back the half the first
    layer fills. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : 1 ≤ t.val
  · have hz : t.val ≠ 0 := by omega
    have hidle : cfg0.idle 5 (grid0.coords t) = false := by rw [idleAt0_5 t]; exact decide_eq_false hz
    rw [show (dats m 0 c).leavesExact 5 t = owns (c : Thread nD τ) (ms0_5 t) fullShare ((dats m 0 c).after 5 t) from by
      unfold Dat.leavesExact; rw [hidle], after0_5]
    rw [PhiS_castSucc m c t, PhiS_pos m c _ _ hz]
    have hoff1 : k0_off1 (grid0.coords t) = ![(t.val - 1) % 2, 0, 0] :=
      (off1_eq t).trans (congrArg (fun j : ℕ => (![j, 0, 0] : Fin 3 → ℕ)) (by omega))
    by_cases h1 : t.val < 8
    · iintro ⟨⟨⟨%xs, HS0, %hxs⟩, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ ((hcond1 t).mpr h0) ((hcond2 t).mpr h1) (iblk m c 0 t) (iblk m c 1 t) (iblk m c 2 t) (iblk m c 3 t) (iblk m c 4 t) xs) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, ⟨%xs', HS0, %hxs'⟩⟩
      isplitl [HS0 Hg]
      · isplitl [HS0]
        · iexists xs'; isplitl [HS0]; · iexact HS0
          ipureintro; intro _
          exact (slotOf_congr xs' (off2_eq t) _ _).symm.trans hxs'
        iexact Hg
      isplitl [Ho]; · iexact Ho
      isplitl [H0]; · iexact H0
      isplitl [H1]; · iexact H1
      isplitl [H2]; · iexact H2
      isplitl [H3]; · iexact H3
      isplitl [H4]; · iexact H4
      rw [show slotOf xs (k0_off1 (grid0.coords t)) (k0_off1_inb (grid0.coords t) ((hcond1 t).mpr h0))
          = hvalAt m c (t.val - 1) (Nat.lt_of_le_of_lt (Nat.sub_le _ _) t.isLt) from
        (slotOf_congr xs hoff1 _ _).trans (hxs (by omega))]
      iexact H5
    · iintro ⟨⟨⟨%xs, HS0, %hxs⟩, Hg⟩, Ho, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ _ _ ((hcond1 t).mpr h0) (fun h => h1 ((hcond2 t).mp h)) (iblk m c 0 t) (iblk m c 1 t) (iblk m c 2 t) (iblk m c 3 t) (iblk m c 4 t) xs) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexists xs; isplitl [HS0]; · iexact HS0
          ipureintro; intro h; exact absurd h h1
        iexact Hg
      isplitl [Ho]; · iexact Ho
      isplitl [H0]; · iexact H0
      isplitl [H1]; · iexact H1
      isplitl [H2]; · iexact H2
      isplitl [H3]; · iexact H3
      isplitl [H4]; · iexact H4
      rw [show slotOf xs (k0_off1 (grid0.coords t)) (k0_off1_inb (grid0.coords t) ((hcond1 t).mpr h0))
          = hvalAt m c (t.val - 1) (Nat.lt_of_le_of_lt (Nat.sub_le _ _) t.isLt) from
        (slotOf_congr xs hoff1 _ _).trans (hxs (by omega))]
      iexact H5
  · have hz : t.val = 0 := by omega
    have h1 : t.val < 8 := by omega
    rw [Dat.leavesExact_idle (dats m 0 c) 5 t (by rw [idleAt0_5 t]; exact decide_eq_true hz) (noFlush0_5 t hz)]
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ (fun h => h0 ((hcond1 t).mp h)) ((hcond2 t).mpr h1) (iblk m c 0 t) (iblk m c 1 t) (iblk m c 2 t) (iblk m c 3 t) (iblk m c 4 t) ((dats m 0 c).before 5 t d5)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%xs', HS0, %hxs'⟩⟩
    isplitl [HS0 Hg]
    · isplitl [HS0]
      · iexists xs'; isplitl [HS0]; · iexact HS0
        ipureintro; intro _
        exact (slotOf_congr xs' (off2_eq t) _ _).symm.trans hxs'
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 9 := N_0; omega), PhiA0_eq]
  iintro ⟨⟨%xs, HS0, -⟩, Hg⟩
  isplitl [HS0]
  · iexists _; iexact HS0
  iexact Hg

/-! ## The run and the frame -/

set_option backward.isDefEq.respectTransparency.types false in
/-- Every weakly fair execution of @main terminates; every array of the pipeline ends at what the library computes from
    the proof data, every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand
end
-- ==== Proof.BodyBits.lean ====
/-
  The frame of the expert-layer kernel, at any float instance.

  The kernel runs on a grid of nine points.  Point `t` runs the second layer of expert `t - 1` (for `1 ≤ t`) and the first
  layer of expert `t` (for `t < 8`); the hidden activations travel from one point to the next in a scratch of two halves,
  half `t % 2` written at point `t` and read back at point `t + 1`.  So the region's invariant after point `n` says what
  half `n % 2` of the scratch holds (the first layer's payload of the point's three input blocks), and the result's
  staging buffer after point `t ≥ 1` holds the second layer's payload of that half and the point's two other blocks.
  The body is run once per kind of point (first, middle, last); the library's frame run with a tracking invariant does
  the rest.
-/
import proofs.«159461_g12489764897382_cont_sun_c4_646_20_alg».proof.Proof.Gen.Kernel.Frame
import proofs.«159461_g12489764897382_cont_sun_c4_646_20_alg».proof.Proof.Gen.Kernel.Skeleton
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's nine points

Point `t` of the grid runs the second layer of expert `t - 1` (when `1 ≤ t`) on the hidden activations the point
before left in half `(t - 1) % 2` of the scratch, and then the first layer of expert `t` (when `t < 8`), whose
activations it leaves in half `t % 2`. -/

theorem hz3 : (![0, 0, 0] : Fin 3 → Nat) = fun _ => 0 := by
  funext a; match a with | ⟨0, _⟩ => rfl | ⟨1, _⟩ => rfl | ⟨2, _⟩ => rfl

/-- The second layer runs from point 1 on. -/
theorem hcond1 : ∀ t : Fin cfg0.N, k0_cond1 (grid0.coords t) = 1#1 ↔ 1 ≤ t.val :=
  (by decide +kernel : ∀ t : Fin grid0.N, k0_cond1 (grid0.coords t) = 1#1 ↔ 1 ≤ t.val)
/-- The first layer runs before point 8. -/
theorem hcond2 : ∀ t : Fin cfg0.N, k0_cond2 (grid0.coords t) = 1#1 ↔ t.val < 8 :=
  (by decide +kernel : ∀ t : Fin grid0.N, k0_cond2 (grid0.coords t) = 1#1 ↔ t.val < 8)
/-- The half of the scratch the second layer reads at point `t`. -/
theorem off1_eq : ∀ t : Fin cfg0.N, k0_off1 (grid0.coords t) = ![(t.val + 1) % 2, 0, 0] :=
  (by decide +kernel : ∀ t : Fin grid0.N, k0_off1 (grid0.coords t) = ![(t.val + 1) % 2, 0, 0])
/-- The half of the scratch the first layer fills at point `t`. -/
theorem off2_eq : ∀ t : Fin cfg0.N, k0_off2 (grid0.coords t) = ![t.val % 2, 0, 0] :=
  (by decide +kernel : ∀ t : Fin grid0.N, k0_off2 (grid0.coords t) = ![t.val % 2, 0, 0])

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- The result window is idle at point 0 only (nothing is stored there), -/
theorem idleAt0_5 : ∀ t : Fin cfg0.N, cfg0.idle 5 (grid0.coords t) = decide (t.val = 0) :=
  (by decide +kernel : ∀ t : Fin grid0.N, cfg0.idle 5 (grid0.coords t) = decide (t.val = 0))
/-- and point 0 does not write it back: points 0 and 1 share block 0 of the result. -/
theorem noFlush0_5 : ∀ t : Fin cfg0.N, t.val = 0 → (cfg0.win 5).flush t = false :=
  (by decide +kernel : ∀ t : Fin grid0.N, t.val = 0 → (cfg0.win 5).flush t = false)

/-! ## The staging memrefs and the scratch -/

abbrev ms0_0 (t : Fin cfg0.N) : Memref sig .tc .vmem S1x1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .f32 := win0_5.stage (cfg0.slots t 5)
abbrev hs0_5 (t : Fin cfg0.N) : (ms0_5 t).IsWhole := hstage0_5 ((cfg0.slots t 5).cast nbuf0_5)
/-- The scratch: two halves of hidden activations. -/
abbrev scM0_0 : Memref sig .tc .vmem S2x1024x2048 .bf16 := Memref.whole cc0_scratch0

/-- The region's invariant before the first point: the scratch at anything, the generator register at anything. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- One half of the scratch, named by the offsets the body computes for it. -/
def slotOf (xs : Vec F S2x1024x2048 .bf16) (o : Fin 3 → Nat) (h : ∀ a, o a + S1x1024x2048.size a ≤ S2x1024x2048.size a) :
    Vec F S1x1024x2048 .bf16 :=
  View.ld xs (Rect.unit (s := S2x1024x2048) o S1x1024x2048.size h)

theorem slotOf_congr (xs : Vec F S2x1024x2048 .bf16) {o o' : Fin 3 → Nat} (e : o = o')
    (h : ∀ a, o a + S1x1024x2048.size a ≤ S2x1024x2048.size a) (h' : ∀ a, o' a + S1x1024x2048.size a ≤ S2x1024x2048.size a) :
    slotOf xs o h = slotOf xs o' h' := by subst e; rfl

theorem halfInb (n : ℕ) : ∀ a, (![n % 2, 0, 0] : Fin 3 → Nat) a + S1x1024x2048.size a ≤ S2x1024x2048.size a := fun a =>
  match a with
  | ⟨0, _⟩ => by show n % 2 + 1 ≤ 2; omega
  | ⟨1, _⟩ => by show 0 + 1024 ≤ 1024; omega
  | ⟨2, _⟩ => by show 0 + 2048 ≤ 2048; omega

/-- A half just stored reads back as what was stored, whatever the buffer held. -/
theorem slot_written {κ : Kind} {sp : Space} (v : View sig κ sp S2x1024x2048 .bf16) (f : v.ty.Contents (Elt F)) (o : Fin 3 → Nat)
    (h : ∀ a, o a + S1x1024x2048.size a ≤ S2x1024x2048.size a) (w : Vec F S1x1024x2048 .bf16) :
    slotOf (v.read (Elt F) (v.writes (Elt F) f [⟨Rect.unit (s := S2x1024x2048) o S1x1024x2048.size h, w⟩])) o h = w := by
  funext y
  exact View.read_writes_cons_emb v f (Rect.unit (s := S2x1024x2048) o S1x1024x2048.size h) w [] y

/-! ## The body's three runs

Stated on any whole staging memrefs: what the body is handed and what it hands back. -/

set_option maxHeartbeats 1000000 in
/-- Point 0: only the first layer runs. The result's buffer is not touched; the scratch, found at anything, is handed
    back with the half the point fills at the first layer's activations. -/
theorem runA (c : Dev nD) (i : grid0.Coords) (arg1 : Memref sig .tc .vmem S1x1024x1024 .bf16) (harg1 : arg1.IsWhole) (arg2 : Memref sig .tc .vmem S1x1024x2048 .bf16) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S2x1024x2048 .bf16) (harg7 : arg7.IsWhole) (hc0 : ¬k0_cond1 i = 1#1) (hc1 : k0_cond2 i = 1#1)
    (x0 : Vec F S1x1024x1024 .bf16) (x1 : Vec F S1x1024x2048 .bf16) (x2 : Vec F S1x1x2048 .f32) (x3 : Vec F S1x2048x1024 .bf16) (x4 : Vec F S1x1x1024 .f32)
    (x5 : Vec F S1x1024x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ xs', owns (c : Thread nD τ) arg7 fullShare xs' ∗ ⌜slotOf xs' (k0_off2 i) (k0_off2_inb i hc1) = k0_pay2 x0 x1 x2⌝)) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    iexists _
    isplitl [HS0]
    · iexists _; isplitr; swap; · iexact HS0
      ipureintro; rfl
    ipureintro
    refine (slot_written arg7.view fs0 (k0_off2 i) (k0_off2_inb i hc1) _).trans ?_
    simp only [View.readAt_eq_ld, harg1.read_unread, harg2.read_unread, harg3.read_unread,
      View.ld_unit_zero (S := S1x1024x1024) hz3, View.ld_unit_zero (S := S1x1024x2048) hz3, View.ld_unit_zero (S := S1x1x2048) hz3]

set_option maxHeartbeats 1000000 in
/-- Points 1 to 7: both layers run. The second layer reads the half of the scratch the point before filled and stores
    its result over the whole result buffer; the first layer then fills the other half. -/
theorem runB (c : Dev nD) (i : grid0.Coords) (arg1 : Memref sig .tc .vmem S1x1024x1024 .bf16) (harg1 : arg1.IsWhole) (arg2 : Memref sig .tc .vmem S1x1024x2048 .bf16) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S2x1024x2048 .bf16) (harg7 : arg7.IsWhole) (hc0 : k0_cond1 i = 1#1) (hc1 : k0_cond2 i = 1#1)
    (x0 : Vec F S1x1024x1024 .bf16) (x1 : Vec F S1x1024x2048 .bf16) (x2 : Vec F S1x1x2048 .f32) (x3 : Vec F S1x2048x1024 .bf16) (x4 : Vec F S1x1x1024 .f32) (xs : Vec F S2x1024x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (slotOf xs (k0_off1 i) (k0_off1_inb i hc0)) x3 x4)
                ∗ (∃ xs', owns (c : Thread nD τ) arg7 fullShare xs' ∗ ⌜slotOf xs' (k0_off2 i) (k0_off2_inb i hc1) = k0_pay2 x0 x1 x2⌝)) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz3 Facts₀.inb_S1x1024x1024_S1x1024x1024_0_0_0 y⟩), View.canon_unit_zero hz3]
      simp only [View.readAt_eq_ld, harg1.read_unread, harg2.read_unread, harg3.read_unread, harg4.read_unread, harg5.read_unread, harg7.read_unread,
      View.ld_unit_zero (S := S1x1024x1024) hz3, View.ld_unit_zero (S := S1x1024x2048) hz3, View.ld_unit_zero (S := S1x1x2048) hz3,
      View.ld_unit_zero (S := S1x2048x1024) hz3, View.ld_unit_zero (S := S1x1x1024) hz3]
      rfl
    iexists _
    isplitl [HS0]
    · iexists _; isplitr; swap; · iexact HS0
      ipureintro; rfl
    ipureintro
    refine (slot_written arg7.view _ (k0_off2 i) (k0_off2_inb i hc1) _).trans ?_
    simp only [View.readAt_eq_ld, harg1.read_unread, harg2.read_unread, harg3.read_unread, harg4.read_unread, harg5.read_unread, harg7.read_unread,
      View.ld_unit_zero (S := S1x1024x1024) hz3, View.ld_unit_zero (S := S1x1024x2048) hz3, View.ld_unit_zero (S := S1x1x2048) hz3,
      View.ld_unit_zero (S := S1x2048x1024) hz3, View.ld_unit_zero (S := S1x1x1024) hz3]

set_option maxHeartbeats 1000000 in
/-- Point 8: only the second layer runs, on the half point 7 filled; the scratch is handed back as found. -/
theorem runC (c : Dev nD) (i : grid0.Coords) (arg1 : Memref sig .tc .vmem S1x1024x1024 .bf16) (harg1 : arg1.IsWhole) (arg2 : Memref sig .tc .vmem S1x1024x2048 .bf16) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S2x1024x2048 .bf16) (harg7 : arg7.IsWhole) (hc0 : k0_cond1 i = 1#1) (hc1 : ¬k0_cond2 i = 1#1)
    (x0 : Vec F S1x1024x1024 .bf16) (x1 : Vec F S1x1024x2048 .bf16) (x2 : Vec F S1x1x2048 .f32) (x3 : Vec F S1x2048x1024 .bf16) (x4 : Vec F S1x1x1024 .f32) (xs : Vec F S2x1024x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (slotOf xs (k0_off1 i) (k0_off1_inb i hc0)) x3 x4)
                ∗ owns (c : Thread nD τ) arg7 fullShare xs) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero hz3 Facts₀.inb_S1x1024x1024_S1x1024x1024_0_0_0 y⟩), View.canon_unit_zero hz3]
      simp only [View.readAt_eq_ld, harg1.read_unread, harg2.read_unread, harg3.read_unread, harg4.read_unread, harg5.read_unread, harg7.read_unread,
      View.ld_unit_zero (S := S1x1024x1024) hz3, View.ld_unit_zero (S := S1x1024x2048) hz3, View.ld_unit_zero (S := S1x1x2048) hz3,
      View.ld_unit_zero (S := S1x2048x1024) hz3, View.ld_unit_zero (S := S1x1x1024) hz3]
      rfl
    iexists _; isplitr; · ipureintro; exact harg7.read_unread _
    iexact HS0

/-! ## What the scratch carries from point to point -/

/-- The first layer's activations of expert `n`: what point `n` leaves in half `n % 2` of the scratch. -/
def hvalAt (c : Dev nD) (n : ℕ) (hn : n < cfg0.N) : Vec F S1x1024x2048 .bf16 :=
  k0_pay2 (iblk m c 0 ⟨n, hn⟩) (iblk m c 1 ⟨n, hn⟩) (iblk m c 2 ⟨n, hn⟩)

/-- The region's invariant before position `n`: before the first point the scratch holds anything; after point `n`
    (for `n < 8`) its half `n % 2` holds expert `n`'s hidden activations, the other half anything. -/
def PhiS (c : Dev nD) : (n : ℕ) → n ≤ cfg0.N → sProp 𝕄
  | 0, _ => Pipeline.ΦA spec0 c
  | n + 1, hn => iprop(iprop(∃ xs, owns (c : Thread nD τ) scM0_0 fullShare xs
      ∗ ⌜n < 8 → slotOf xs ![n % 2, 0, 0] (halfInb n) = hvalAt m c n hn⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ xs, owns (c : Thread nD τ) scM0_0 fullShare xs
      ∗ ⌜n < 8 → slotOf xs ![n % 2, 0, 0] (halfInb n) = hvalAt m c n hn⌝) ∗ (∃ r, prngReg c r)) := rfl

theorem PhiS_pos (c : Dev nD) (n : ℕ) (h : n ≤ cfg0.N) (hz : n ≠ 0) :
    PhiS m c n h = iprop(iprop(∃ xs, owns (c : Thread nD τ) scM0_0 fullShare xs
      ∗ ⌜n - 1 < 8 → slotOf xs ![(n - 1) % 2, 0, 0] (halfInb (n - 1)) = hvalAt m c (n - 1) (by omega)⌝) ∗ (∃ r, prngReg c r)) := by
  cases n with
  | zero => exact absurd rfl hz
  | succ n => rfl

/-! ## The pipeline's proof data -/

/-- The proof data of the one pipeline on core `c`: the arrays as the region finds them; after the body at point `t`
    each input's buffer at its block and the result's buffer at the second layer of expert `t - 1` applied to that
    expert's hidden activations; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (hvalAt m c (t.val - 1) (Nat.lt_of_le_of_lt (Nat.sub_le _ _) t.isLt)) (iblk m c 3 t) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = k0_pay1 (hvalAt m c (t.val - 1) (Nat.lt_of_le_of_lt (Nat.sub_le _ _) t.isLt)) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's position decides which layers run; the
    invariant hands the second layer the hidden activations the point before left and takes back the half the first
    layer fills. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : 1 ≤ t.val
  · have hz : t.val ≠ 0 := by omega
    have hidle : cfg0.idle 5 (grid0.coords t) = false := by rw [idleAt0_5 t]; exact decide_eq_false hz
    rw [show (dats m 0 c).leavesExact 5 t = owns (c : Thread nD τ) (ms0_5 t) fullShare ((dats m 0 c).after 5 t) from by
      unfold Dat.leavesExact; rw [hidle], after0_5]
    rw [PhiS_castSucc m c t, PhiS_pos m c _ _ hz]
    have hoff1 : k0_off1 (grid0.coords t) = ![(t.val - 1) % 2, 0, 0] :=
      (off1_eq t).trans (congrArg (fun j : ℕ => (![j, 0, 0] : Fin 3 → ℕ)) (by omega))
    by_cases h1 : t.val < 8
    · iintro ⟨⟨⟨%xs, HS0, %hxs⟩, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ ((hcond1 t).mpr h0) ((hcond2 t).mpr h1) (iblk m c 0 t) (iblk m c 1 t) (iblk m c 2 t) (iblk m c 3 t) (iblk m c 4 t) xs) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, ⟨%xs', HS0, %hxs'⟩⟩
      isplitl [HS0 Hg]
      · isplitl [HS0]
        · iexists xs'; isplitl [HS0]; · iexact HS0
          ipureintro; intro _
          exact (slotOf_congr xs' (off2_eq t) _ _).symm.trans hxs'
        iexact Hg
      isplitl [Ho]; · iexact Ho
      isplitl [H0]; · iexact H0
      isplitl [H1]; · iexact H1
      isplitl [H2]; · iexact H2
      isplitl [H3]; · iexact H3
      isplitl [H4]; · iexact H4
      rw [show slotOf xs (k0_off1 (grid0.coords t)) (k0_off1_inb (grid0.coords t) ((hcond1 t).mpr h0))
          = hvalAt m c (t.val - 1) (Nat.lt_of_le_of_lt (Nat.sub_le _ _) t.isLt) from
        (slotOf_congr xs hoff1 _ _).trans (hxs (by omega))]
      iexact H5
    · iintro ⟨⟨⟨%xs, HS0, %hxs⟩, Hg⟩, Ho, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ _ _ ((hcond1 t).mpr h0) (fun h => h1 ((hcond2 t).mp h)) (iblk m c 0 t) (iblk m c 1 t) (iblk m c 2 t) (iblk m c 3 t) (iblk m c 4 t) xs) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexists xs; isplitl [HS0]; · iexact HS0
          ipureintro; intro h; exact absurd h h1
        iexact Hg
      isplitl [Ho]; · iexact Ho
      isplitl [H0]; · iexact H0
      isplitl [H1]; · iexact H1
      isplitl [H2]; · iexact H2
      isplitl [H3]; · iexact H3
      isplitl [H4]; · iexact H4
      rw [show slotOf xs (k0_off1 (grid0.coords t)) (k0_off1_inb (grid0.coords t) ((hcond1 t).mpr h0))
          = hvalAt m c (t.val - 1) (Nat.lt_of_le_of_lt (Nat.sub_le _ _) t.isLt) from
        (slotOf_congr xs hoff1 _ _).trans (hxs (by omega))]
      iexact H5
  · have hz : t.val = 0 := by omega
    have h1 : t.val < 8 := by omega
    rw [Dat.leavesExact_idle (dats m 0 c) 5 t (by rw [idleAt0_5 t]; exact decide_eq_true hz) (noFlush0_5 t hz)]
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ (fun h => h0 ((hcond1 t).mp h)) ((hcond2 t).mpr h1) (iblk m c 0 t) (iblk m c 1 t) (iblk m c 2 t) (iblk m c 3 t) (iblk m c 4 t) ((dats m 0 c).before 5 t d5)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%xs', HS0, %hxs'⟩⟩
    isplitl [HS0 Hg]
    · isplitl [HS0]
      · iexists xs'; isplitl [HS0]; · iexact HS0
        ipureintro; intro _
        exact (slotOf_congr xs' (off2_eq t) _ _).symm.trans hxs'
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 9 := N_0; omega), PhiA0_eq]
  iintro ⟨⟨%xs, HS0, -⟩, Hg⟩
  isplitl [HS0]
  · iexists _; iexact HS0
  iexact Hg

/-! ## The run and the frame -/

set_option backward.isDefEq.respectTransparency.types false in
/-- Every weakly fair execution of @main terminates; every array of the pipeline ends at what the library computes from
    the proof data, every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand
end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Spec.lean ====
/-
  The specification of the expert layer.

  The 4 × 2048 tokens, flattened in row-major order, are cut into eight contiguous chunks of 1024 tokens; chunk `e`
  goes through expert `e`'s own two-layer perceptron,
      out[e, r, ·] = relu (x[e, r, ·] · W1[e] + b1[e]) · W2[e] + b2[e],
  and the chunks are laid back in the tokens' order.  Everything is stated on the extended reals, entry by entry:
  `hidden` is one entry of the hidden layer, `G` one entry of the result by expert, chunk row and feature, and
  `Gout` the same entry addressed by batch, position and feature.
-/
import Idealize.ShloMosaic.PureOps.Ideal
import Idealize.ShloMosaic.Lib.ValueIdx

noncomputable section

open scoped BigOperators

namespace Cert.MoE

open Idealize.ShloMosaic Idealize.ShloMosaic.ValueIdx

/-- The zero the rectifier compares with, as both programs spell it. -/
abbrev z0 : EReal := Ideal.ofBits .f32 0x00000000#32

/-- One entry of expert `e`'s hidden layer at chunk row `r` and hidden feature `f`:
    `max (∑ k, X[e, r, k] · W1[e, k, f] + b1[e, f]) 0`. -/
def hidden (X : FVec Ideal ⟨3, ![8, 1024, 1024]⟩ .f32) (W1 : FVec Ideal ⟨3, ![8, 1024, 2048]⟩ .f32)
    (b1 : FVec Ideal ⟨2, ![8, 2048]⟩ .f32) (e : Fin 8) (r : Fin 1024) (f : Fin 2048) : EReal :=
  max ((∑ k : Fin 1024, X (ix3 e r k) * W1 (ix3 e k f)) + b1 (ix2 e f)) z0

/-- One entry of the result by expert `e`, chunk row `r` and output feature `d`:
    `∑ f, hidden[e, r, f] · W2[e, f, d] + b2[e, d]`. -/
def G (X : FVec Ideal ⟨3, ![8, 1024, 1024]⟩ .f32) (W1 : FVec Ideal ⟨3, ![8, 1024, 2048]⟩ .f32)
    (b1 : FVec Ideal ⟨2, ![8, 2048]⟩ .f32) (W2 : FVec Ideal ⟨3, ![8, 2048, 1024]⟩ .f32)
    (b2 : FVec Ideal ⟨2, ![8, 1024]⟩ .f32) : FVec Ideal ⟨3, ![8, 1024, 1024]⟩ .f32 := fun j =>
  (∑ f : Fin 2048, hidden X W1 b1 (j 0 : Fin 8) (j 1 : Fin 1024) f * W2 (ix3 (j 0 : Fin 8) f (j 2 : Fin 1024)))
    + b2 (ix2 (j 0 : Fin 8) (j 2 : Fin 1024))

theorem G_apply (X : FVec Ideal ⟨3, ![8, 1024, 1024]⟩ .f32) (W1 : FVec Ideal ⟨3, ![8, 1024, 2048]⟩ .f32)
    (b1 : FVec Ideal ⟨2, ![8, 2048]⟩ .f32) (W2 : FVec Ideal ⟨3, ![8, 2048, 1024]⟩ .f32)
    (b2 : FVec Ideal ⟨2, ![8, 1024]⟩ .f32) (e : Fin 8) (r : Fin 1024) (d : Fin 1024) :
    G X W1 b1 W2 b2 (ix3 e r d)
      = (∑ f : Fin 2048, hidden X W1 b1 e r f * W2 (ix3 e f d)) + b2 (ix2 e d) := rfl

/-- The tokens by expert and chunk row: token `(b, s)` is row `(b · 2048 + s) % 1024` of chunk
    `(b · 2048 + s) / 1024`; read the other way, row `r` of chunk `e` is token
    `((e · 1024 + r) / 2048, (e · 1024 + r) % 2048)`. -/
def chunks (x : FVec Ideal ⟨3, ![4, 2048, 1024]⟩ .f32) : FVec Ideal ⟨3, ![8, 1024, 1024]⟩ .f32 := fun j =>
  x (ix3 (⟨((j 0).val * 1024 + (j 1).val) / 2048, by
        have h0 : (j 0).val < 8 := (j 0).isLt; have h1 : (j 1).val < 1024 := (j 1).isLt; omega⟩ : Fin 4)
      (⟨((j 0).val * 1024 + (j 1).val) % 2048, Nat.mod_lt _ (by decide)⟩ : Fin 2048) (j 2 : Fin 1024))

/-- The result in the tokens' own layout. -/
def Gout (x : FVec Ideal ⟨3, ![4, 2048, 1024]⟩ .f32) (W1 : FVec Ideal ⟨3, ![8, 1024, 2048]⟩ .f32)
    (b1 : FVec Ideal ⟨2, ![8, 2048]⟩ .f32) (W2 : FVec Ideal ⟨3, ![8, 2048, 1024]⟩ .f32)
    (b2 : FVec Ideal ⟨2, ![8, 1024]⟩ .f32) : FVec Ideal ⟨3, ![4, 2048, 1024]⟩ .f32 := fun i =>
  G (chunks x) W1 b1 W2 b2
    (ix3 (⟨((i 0).val * 2048 + (i 1).val) / 1024, by
        have h0 : (i 0).val < 4 := (i 0).isLt; have h1 : (i 1).val < 2048 := (i 1).isLt; omega⟩ : Fin 8)
      (⟨((i 0).val * 2048 + (i 1).val) % 1024, Nat.mod_lt _ (by decide)⟩ : Fin 1024) (i 2 : Fin 1024))

end Cert.MoE

end
-- ==== Proof.Pay.lean ====
/-
  The two payloads of the kernel body, read at an entry, on the extended reals.

  The body of one grid step holds two pure values.  The first-layer value takes a chunk of tokens `x` (1024 × 1024), the
  expert's first weight matrix `w` (1024 × 2048) and its bias row `b`, and is the rectified affine map
      (r, f) ↦ max (∑ k, x[r, k] · w[k, f] + b[f]) 0,
  rounded to the narrower format, which on the extended reals is no change.  The second-layer value takes the hidden
  chunk `h` (1024 × 2048), the second weight matrix `w` (2048 × 1024) and its bias row `b`, and is the affine map
      (r, d) ↦ ∑ f, h[r, f] · w[f, d] + b[d].
  Every array carries a leading unit axis, dropped before the product and put back after it; dropping or adding a
  leading unit axis does not move an entry in row-major order, so entry (0, r, c) of the longer shape is entry (r, c) of
  the shorter one.  The bias row is repeated over the 1024 rows.
-/
import proofs.«159461_g12489764897382_cont_sun_c4_646_20_alg».proof.Proof.Gen.KernelIdeal.Skeleton
import proofs.«159461_g12489764897382_cont_sun_c4_646_20_alg».proof.Proof.LibPlainDot
import proofs.«159461_g12489764897382_cont_sun_c4_646_20_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MoE.Pay

open Idealize.ShloMosaic Idealize.ShloMosaic.ValueIdx Cert.KernelIdeal Cert.KernelIdeal.Gen

/-- Both products contract the left operand's columns with the right operand's rows and batch nothing. -/
theorem plain_first : PlainDot.IsPlain dot_S1024x1024_S1024x2048_S1024x2048_1_0_0_1_n_n := ⟨rfl, rfl, rfl, rfl, rfl, rfl⟩

theorem plain_second : PlainDot.IsPlain dot_S1024x2048_S2048x1024_S1024x1024_1_0_0_1_n_n := ⟨rfl, rfl, rfl, rfl, rfl, rfl⟩

/-- The first layer at chunk row `r` and hidden feature `f`: the rectified affine map of the row. -/
theorem pay2_apply (x : Vec Ideal S1x1024x1024 .bf16) (w : Vec Ideal S1x1024x2048 .bf16) (b : Vec Ideal S1x1x2048 .f32) (r : Fin 1024) (f : Fin 2048) :
    k0_pay2 (F := Ideal) x w b (ix3 (0 : Fin 1) r f) = max ((∑ k : Fin 1024, x (ix3 (0 : Fin 1) r k) * w (ix3 (0 : Fin 1) k f)) + b (ix3 (0 : Fin 1) (0 : Fin 1) f)) Cert.MoE.z0 := by
  unfold k0_pay2
  -- the leading unit axis put back: entry (0, r, f) is entry (r, f) of the matrix
  refine (shapeCast_ab_1ab_apply _ _ (0 : Fin 1) r f).trans ?_
  -- rounding is no change; the rectifier and the sum are entrywise
  refine (truncf_apply (φ := .f32) (ψ := .bf16) _ bitsLt_bf16_f32 (ix2 r f)).trans ?_
  refine (maximumf_apply (φ := .f32) _ _ (ix2 r f)).trans ?_
  refine congrArg₂ max ?_ rfl
  refine (addf_apply (φ := .f32) _ _ (ix2 r f)).trans ?_
  refine congrArg₂ (· + ·) ?_ ?_
  · -- the product into a zero accumulator is the textbook sum, its operands read past their unit axes
    refine (PlainDot.matmul_zero_apply plain_first none _ _ r f).trans ?_
    refine Finset.sum_congr rfl fun k _ => ?_
    exact congrArg₂ (· * ·) (shapeCast_1ab_ab_apply x _ r k) (shapeCast_1ab_ab_apply w _ k f)
  · -- the one bias row, repeated over the rows
    refine (broadcastTo_1b_ab_apply _ _ r f).trans ?_
    exact shapeCast_1ab_ab_apply b _ (0 : Fin 1) f

/-- The second layer at chunk row `r` and output feature `d`: the affine map of the hidden row. -/
theorem pay1_apply (h : Vec Ideal S1x1024x2048 .bf16) (w : Vec Ideal S1x2048x1024 .bf16) (b : Vec Ideal S1x1x1024 .f32) (r : Fin 1024) (d : Fin 1024) :
    k0_pay1 (F := Ideal) h w b (ix3 (0 : Fin 1) r d) = (∑ f : Fin 2048, h (ix3 (0 : Fin 1) r f) * w (ix3 (0 : Fin 1) f d)) + b (ix3 (0 : Fin 1) (0 : Fin 1) d) := by
  unfold k0_pay1
  refine (shapeCast_ab_1ab_apply _ _ (0 : Fin 1) r d).trans ?_
  refine (addf_apply (φ := .f32) _ _ (ix2 r d)).trans ?_
  refine congrArg₂ (· + ·) ?_ ?_
  · refine (PlainDot.matmul_zero_apply plain_second none _ _ r d).trans ?_
    refine Finset.sum_congr rfl fun f _ => ?_
    exact congrArg₂ (· * ·) (shapeCast_1ab_ab_apply h _ r f) (shapeCast_1ab_ab_apply w _ f d)
  · refine (broadcastTo_1b_ab_apply _ _ r d).trans ?_
    exact shapeCast_1ab_ab_apply b _ (0 : Fin 1) d

end Cert.MoE.Pay

end
-- ==== Proof.Blocks.lean ====
/-
  The pipeline's blocks and the arrays the region finds, read at an entry, on the extended reals.

  Before the region the host regroups the tokens (4 × 2048 rows into 8 chunks of 1024 rows, in row-major order),
  converts tokens and weights to a narrower format (no change on the extended reals), and puts a unit axis into each
  bias array.  The region then walks nine grid points; at point `t` the first layer's three windows hold expert
  `min t 7` and the second layer's three windows hold expert `t - 1`.  Each lemma below reads one window's block at
  one entry as the launched argument array at the entry that block position names; the last three say where the
  result's blocks lie, at which points they are written back, and that those blocks fill the result array.
-/
import proofs.«159461_g12489764897382_cont_sun_c4_646_20_alg».proof.Proof.Gen.KernelIdeal.Frame
import proofs.«159461_g12489764897382_cont_sun_c4_646_20_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.MoE.Blocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## The arrays the region finds

Six host operations run before the region.  On the extended reals a conversion to a narrower format changes
nothing, so the two weight arrays arrive as launched; the tokens arrive regrouped from 4 × 2048 rows to 8 × 1024
rows, and each bias array with a unit axis put in the middle. -/

/-- The tokens, regrouped in row-major order into eight chunks of 1024 rows. -/
theorem V_v1 (c : Dev nD) : (V m c main_v1 : S8x1024x1024.Idx → EReal)
    = shapeCast S8x1024x1024 (m ((c : Thread nD τ).loc main_arg0)) shapeCasts_S4x2048x1024_S8x1024x1024 := by
  show StableHlo.after hostOps0 (fun b => m (c, b)) (Proc.devRef .tc main_v1) = _
  after_results
  rfl

/-- The first weights, as launched. -/
theorem V_v2 (c : Dev nD) : (V m c main_v2 : S8x1024x2048.Idx → EReal) = m ((c : Thread nD τ).loc main_arg1) := by
  show StableHlo.after hostOps0 (fun b => m (c, b)) (Proc.devRef .tc main_v2) = _
  after_results
  rfl

/-- The second weights, as launched. -/
theorem V_v3 (c : Dev nD) : (V m c main_v3 : S8x2048x1024.Idx → EReal) = m ((c : Thread nD τ).loc main_arg3) := by
  show StableHlo.after hostOps0 (fun b => m (c, b)) (Proc.devRef .tc main_v3) = _
  after_results
  rfl

/-- The first biases, a unit axis put between expert and feature. -/
theorem V_v4 (c : Dev nD) : (V m c main_v4 : S8x1x2048.Idx → EReal)
    = shapeCast S8x1x2048 (m ((c : Thread nD τ).loc main_arg2)) shapeCasts_S8x2048_S8x1x2048 := by
  show StableHlo.after hostOps0 (fun b => m (c, b)) (Proc.devRef .tc main_v4) = _
  after_results
  rfl

/-- The second biases, likewise. -/
theorem V_v5 (c : Dev nD) : (V m c main_v5 : S8x1x1024.Idx → EReal)
    = shapeCast S8x1x1024 (m ((c : Thread nD τ).loc main_arg4)) shapeCasts_S8x1024_S8x1x1024 := by
  show StableHlo.after hostOps0 (fun b => m (c, b)) (Proc.devRef .tc main_v5) = _
  after_results
  rfl

/-- Regrouping the tokens is the chunk map: row `r` of chunk `e` is row `(e · 1024 + r) % 2048` of batch
    `(e · 1024 + r) / 2048`, the two having one row-major position. -/
theorem reshape_chunks (x : FVec Ideal ⟨3, ![4, 2048, 1024]⟩ .f32) (h : (⟨3, ![4, 2048, 1024]⟩ : Shape).ShapeCasts S8x1024x1024)
    (e : Fin 8) (r k : Fin 1024) :
    shapeCast S8x1024x1024 x h (ix3 e r k) = Cert.MoE.chunks x (ix3 e r k) := by
  unfold Cert.MoE.chunks
  refine shapeCast_apply x h _ _ ?_
  rw [Shape.rowMajor_val_three, Shape.rowMajor_val_three]
  show ((e.val * 1024 + r.val) / 2048 * 2048 + (e.val * 1024 + r.val) % 2048) * 1024 + k.val
    = (e.val * 1024 + r.val) * 1024 + k.val
  have := Nat.div_add_mod (e.val * 1024 + r.val) 2048
  omega

/-- A bias array with its unit axis: entry `(e, 0, f)` is entry `(e, f)`. -/
theorem reshape_bias {n : ℕ} (x : (⟨2, ![8, n]⟩ : Shape).Idx → EReal) (h : (⟨2, ![8, n]⟩ : Shape).ShapeCasts ⟨3, ![8, 1, n]⟩)
    (e : Fin 8) (f : Fin n) :
    shapeCast ⟨3, ![8, 1, n]⟩ x h (ix3 e (0 : Fin 1) f) = x (ix2 e f) := by
  refine shapeCast_apply x h _ _ ?_
  rw [Shape.rowMajor_val_three, Shape.rowMajor_val_two]
  show e.val * n + f.val = (e.val * 1 + (0 : Fin 1).val) * n + f.val
  simp

/-! ## Where each window's block lies

The grid has nine points.  At point `t` the first layer's windows (tokens, first weights, first biases) hold expert
`min t 7`, and the second layer's windows (second weights, second biases, result) hold expert `t - 1` (expert 0 at
point 0): the second layer runs one point behind the first. -/

theorem idx_all : ∀ t : Fin cfg0.N,
    (win0_0.index t (0 : Fin 3) = min t.val 7 ∧ win0_0.index t (1 : Fin 3) = 0 ∧ win0_0.index t (2 : Fin 3) = 0)
    ∧ (win0_1.index t (0 : Fin 3) = min t.val 7 ∧ win0_1.index t (1 : Fin 3) = 0 ∧ win0_1.index t (2 : Fin 3) = 0)
    ∧ (win0_2.index t (0 : Fin 3) = min t.val 7 ∧ win0_2.index t (1 : Fin 3) = 0 ∧ win0_2.index t (2 : Fin 3) = 0)
    ∧ (win0_3.index t (0 : Fin 3) = t.val - 1 ∧ win0_3.index t (1 : Fin 3) = 0 ∧ win0_3.index t (2 : Fin 3) = 0)
    ∧ (win0_4.index t (0 : Fin 3) = t.val - 1 ∧ win0_4.index t (1 : Fin 3) = 0 ∧ win0_4.index t (2 : Fin 3) = 0)
    ∧ (win0_5.index t (0 : Fin 3) = t.val - 1 ∧ win0_5.index t (1 : Fin 3) = 0 ∧ win0_5.index t (2 : Fin 3) = 0) :=
  (by decide +kernel : ∀ t : Fin grid0.N, _)

theorem lt_first (t : Fin cfg0.N) : min t.val 7 < 8 := by omega

theorem lt_second (t : Fin cfg0.N) : t.val - 1 < 8 := by
  have h : t.val < 9 := lt_of_lt_of_eq t.isLt N_0
  omega

/-- A block's entry in its array: on each axis the block's index times the block's extent, plus the coordinate
    inside the block. -/
theorem emb0 (t : Fin cfg0.N) (r k : Fin 1024) :
    ((cfg0.win 0).blk t).view.emb (ix3 (0 : Fin 1) r k) = ix3 (⟨min t.val 7, lt_first t⟩ : Fin 8) r k := by
  obtain ⟨⟨e0, e1, e2⟩, -⟩ := idx_all t
  funext a; apply Fin.ext
  match a with
  | ⟨0, _⟩ => show win0_0.index t (0 : Fin 3) * 1 + 1 * (0 : Fin 1).val = min t.val 7; rw [e0]; simp
  | ⟨1, _⟩ => show win0_0.index t (1 : Fin 3) * 1024 + 1 * r.val = r.val; omega
  | ⟨2, _⟩ => show win0_0.index t (2 : Fin 3) * 1024 + 1 * k.val = k.val; omega

theorem emb1 (t : Fin cfg0.N) (k : Fin 1024) (f : Fin 2048) :
    ((cfg0.win 1).blk t).view.emb (ix3 (0 : Fin 1) k f) = ix3 (⟨min t.val 7, lt_first t⟩ : Fin 8) k f := by
  obtain ⟨-, ⟨e0, e1, e2⟩, -⟩ := idx_all t
  funext a; apply Fin.ext
  match a with
  | ⟨0, _⟩ => show win0_1.index t (0 : Fin 3) * 1 + 1 * (0 : Fin 1).val = min t.val 7; rw [e0]; simp
  | ⟨1, _⟩ => show win0_1.index t (1 : Fin 3) * 1024 + 1 * k.val = k.val; omega
  | ⟨2, _⟩ => show win0_1.index t (2 : Fin 3) * 2048 + 1 * f.val = f.val; omega

theorem emb2 (t : Fin cfg0.N) (f : Fin 2048) :
    ((cfg0.win 2).blk t).view.emb (ix3 (0 : Fin 1) (0 : Fin 1) f) = ix3 (⟨min t.val 7, lt_first t⟩ : Fin 8) (0 : Fin 1) f := by
  obtain ⟨-, -, ⟨e0, e1, e2⟩, -⟩ := idx_all t
  funext a; apply Fin.ext
  match a with
  | ⟨0, _⟩ => show win0_2.index t (0 : Fin 3) * 1 + 1 * (0 : Fin 1).val = min t.val 7; rw [e0]; simp
  | ⟨1, _⟩ => show win0_2.index t (1 : Fin 3) * 1 + 1 * (0 : Fin 1).val = (0 : Fin 1).val; rw [e1]; simp
  | ⟨2, _⟩ => show win0_2.index t (2 : Fin 3) * 2048 + 1 * f.val = f.val; omega

theorem emb3 (t : Fin cfg0.N) (f : Fin 2048) (d : Fin 1024) :
    ((cfg0.win 3).blk t).view.emb (ix3 (0 : Fin 1) f d) = ix3 (⟨t.val - 1, lt_second t⟩ : Fin 8) f d := by
  obtain ⟨-, -, -, ⟨e0, e1, e2⟩, -⟩ := idx_all t
  funext a; apply Fin.ext
  match a with
  | ⟨0, _⟩ => show win0_3.index t (0 : Fin 3) * 1 + 1 * (0 : Fin 1).val = t.val - 1; rw [e0]; simp
  | ⟨1, _⟩ => show win0_3.index t (1 : Fin 3) * 2048 + 1 * f.val = f.val; omega
  | ⟨2, _⟩ => show win0_3.index t (2 : Fin 3) * 1024 + 1 * d.val = d.val; omega

theorem emb4 (t : Fin cfg0.N) (d : Fin 1024) :
    ((cfg0.win 4).blk t).view.emb (ix3 (0 : Fin 1) (0 : Fin 1) d) = ix3 (⟨t.val - 1, lt_second t⟩ : Fin 8) (0 : Fin 1) d := by
  obtain ⟨-, -, -, -, ⟨e0, e1, e2⟩, -⟩ := idx_all t
  funext a; apply Fin.ext
  match a with
  | ⟨0, _⟩ => show win0_4.index t (0 : Fin 3) * 1 + 1 * (0 : Fin 1).val = t.val - 1; rw [e0]; simp
  | ⟨1, _⟩ => show win0_4.index t (1 : Fin 3) * 1 + 1 * (0 : Fin 1).val = (0 : Fin 1).val; rw [e1]; simp
  | ⟨2, _⟩ => show win0_4.index t (2 : Fin 3) * 1024 + 1 * d.val = d.val; omega

theorem emb5 (t : Fin cfg0.N) (r d : Fin 1024) :
    ((cfg0.win 5).blk t).view.emb (ix3 (0 : Fin 1) r d) = ix3 (⟨t.val - 1, lt_second t⟩ : Fin 8) r d := by
  obtain ⟨-, -, -, -, -, ⟨e0, e1, e2⟩⟩ := idx_all t
  funext a; apply Fin.ext
  match a with
  | ⟨0, _⟩ => show win0_5.index t (0 : Fin 3) * 1 + 1 * (0 : Fin 1).val = t.val - 1; rw [e0]; simp
  | ⟨1, _⟩ => show win0_5.index t (1 : Fin 3) * 1024 + 1 * r.val = r.val; omega
  | ⟨2, _⟩ => show win0_5.index t (2 : Fin 3) * 1024 + 1 * d.val = d.val; omega

/-! ## The input blocks, read at an entry -/

/-- The tokens' block at point `t` is chunk `min t 7`. -/
theorem iblk0_apply (c : Dev nD) (t : Fin cfg0.N) (r k : Fin 1024) :
    (iblk m c 0 t (ix3 (0 : Fin 1) r k) : EReal)
      = Cert.MoE.chunks (m ((c : Thread nD τ).loc main_arg0)) (ix3 (⟨min t.val 7, lt_first t⟩ : Fin 8) r k) := by
  show V m c main_v1 (((cfg0.win 0).blk t).view.emb (ix3 (0 : Fin 1) r k)) = _
  rw [emb0 t r k]
  refine (congrFun (V_v1 m c) _).trans ?_
  exact reshape_chunks _ _ _ r k

/-- The first weights' block at point `t` is expert `min t 7`'s matrix. -/
theorem iblk1_apply (c : Dev nD) (t : Fin cfg0.N) (k : Fin 1024) (f : Fin 2048) :
    (iblk m c 1 t (ix3 (0 : Fin 1) k f) : EReal)
      = m ((c : Thread nD τ).loc main_arg1) (ix3 (⟨min t.val 7, lt_first t⟩ : Fin 8) k f) := by
  show V m c main_v2 (((cfg0.win 1).blk t).view.emb (ix3 (0 : Fin 1) k f)) = _
  rw [emb1 t k f]
  exact congrFun (V_v2 m c) _

/-- The first biases' block at point `t` is expert `min t 7`'s row. -/
theorem iblk2_apply (c : Dev nD) (t : Fin cfg0.N) (f : Fin 2048) :
    (iblk m c 2 t (ix3 (0 : Fin 1) (0 : Fin 1) f) : EReal)
      = m ((c : Thread nD τ).loc main_arg2) (ix2 (⟨min t.val 7, lt_first t⟩ : Fin 8) f) := by
  show V m c main_v4 (((cfg0.win 2).blk t).view.emb (ix3 (0 : Fin 1) (0 : Fin 1) f)) = _
  rw [emb2 t f]
  refine (congrFun (V_v4 m c) _).trans ?_
  exact reshape_bias _ _ _ f

/-- The second weights' block at point `t` is expert `t - 1`'s matrix. -/
theorem iblk3_apply (c : Dev nD) (t : Fin cfg0.N) (f : Fin 2048) (d : Fin 1024) :
    (iblk m c 3 t (ix3 (0 : Fin 1) f d) : EReal)
      = m ((c : Thread nD τ).loc main_arg3) (ix3 (⟨t.val - 1, lt_second t⟩ : Fin 8) f d) := by
  show V m c main_v3 (((cfg0.win 3).blk t).view.emb (ix3 (0 : Fin 1) f d)) = _
  rw [emb3 t f d]
  exact congrFun (V_v3 m c) _

/-- The second biases' block at point `t` is expert `t - 1`'s row. -/
theorem iblk4_apply (c : Dev nD) (t : Fin cfg0.N) (d : Fin 1024) :
    (iblk m c 4 t (ix3 (0 : Fin 1) (0 : Fin 1) d) : EReal)
      = m ((c : Thread nD τ).loc main_arg4) (ix2 (⟨t.val - 1, lt_second t⟩ : Fin 8) d) := by
  show V m c main_v5 (((cfg0.win 4).blk t).view.emb (ix3 (0 : Fin 1) (0 : Fin 1) d)) = _
  rw [emb4 t d]
  refine (congrFun (V_v5 m c) _).trans ?_
  exact reshape_bias _ _ _ d

/-! ## The result's blocks -/

/-- The result's block at point `t`, read off any contents of the result array, is expert `t - 1`'s chunk. -/
theorem blk5_read (c : Dev nD) (t : Fin cfg0.N) (Gc : Buf (Elt Ideal) ((c : Thread nD τ).loc main_v6)) (r d : Fin 1024) :
    ((cfg0.win 5).blk t).view.read (Elt Ideal) Gc (ix3 (0 : Fin 1) r d) = Gc (ix3 (⟨t.val - 1, lt_second t⟩ : Fin 8) r d) := by
  show Gc (((cfg0.win 5).blk t).view.emb (ix3 (0 : Fin 1) r d)) = _
  rw [emb5 t r d]

/-- The result's block is written back at every point but the first. -/
theorem flush5_iff : ∀ t : Fin cfg0.N, (cfg0.win 5).flush t = true ↔ 1 ≤ t.val :=
  (by decide +kernel : ∀ t : Fin grid0.N, _)

/-- Every entry of the result is in a block some point writes back: expert `e`'s chunk is point `e + 1`'s. -/
theorem cover5 (c : Dev nD) : ∀ i : ((cfg0.win 5).arr.view.loc (c.tc : Thread nD τ)).2.ty.Idx,
    ∃ t : Fin cfg0.N, (cfg0.win 5).flush t = true ∧ i ∈ ((cfg0.win 5).blk t).view.set := by
  intro i
  have h0 : (i 0).val < 8 := (i 0).isLt
  have h1 : (i 1).val < 1024 := (i 1).isLt
  have h2 : (i 2).val < 1024 := (i 2).isLt
  let t : Fin cfg0.N := ⟨(i 0).val + 1, lt_of_lt_of_eq (by omega : (i 0).val + 1 < 9) N_0.symm⟩
  have ht : t.val = (i 0).val + 1 := rfl
  obtain ⟨-, -, -, -, -, ⟨e0, e1, e2⟩⟩ := idx_all t
  refine ⟨t, (flush5_iff t).mpr (by omega), ?_⟩
  show i ∈ ((View.whole main_v6).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

end Cert.MoE.Blocks

end
-- ==== Proof.Tail.lean ====
/-
  The one host operation after the region, and the specification read through it.

  After the region the program reshapes the result array, 8 × 1024 × 1024 by expert, chunk row and feature, to the
  tokens' own layout 4 × 2048 × 1024.  No other operation follows, so what the result buffer holds at the end is that
  reshape of whatever the region left in its result array (`tail_v7`).  A reshape keeps the row-major position: entry
  `(b, s, d)` of the reshaped array sits at flat position `(b·2048 + s)·1024 + d`, which in the array by chunks is
  chunk `(b·2048 + s) / 1024`, row `(b·2048 + s) % 1024`, feature `d`.  Reading the specification's `G` of the chunked
  tokens through the reshape is therefore `Gout`, entry by entry (`reshape_G`).
-/
import proofs.«159461_g12489764897382_cont_sun_c4_646_20_alg».proof.Proof.Gen.KernelIdeal.Frame
import proofs.«159461_g12489764897382_cont_sun_c4_646_20_alg».proof.Proof.Spec
import Idealize.ShloMosaic.Lib.ValueIdx
import Idealize.ShloMosaic.Lib.Pipeline.Value
import Idealize.ShloMosaic.Lib.StableHlo.Run

set_option maxRecDepth 16384

noncomputable section

open scoped BigOperators

namespace Cert.MoE.Tail

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The result buffer after the host operation that follows the region: the reshape of the region's result array as
    the region left it.  The operation reads the result array, which is the pipeline's sixth window's array, so the
    contents it reads are that window's final contents `Gc`; it writes its own buffer and nothing else follows. -/
theorem tail_v7 (dats : (p : Fin 1) → (c : Dev nD) → Dat τ (Elt Ideal) Unit ℕ (UR sig nD τ) ℕ (cfgs p) c) (c : Dev nD) (Gc : FVec Ideal S8x1024x1024 .f32) (hfin : (dats 0 c).arrAt 5 cfg0.N = Gc) :
    Pipeline.afterTail₀ cfgs dats 0 (V0 m) [hostOps1] c main_v7 = shapeCast S4x2048x1024 Gc shapeCasts_S8x1024x1024_S4x2048x1024 := by
  unfold Pipeline.afterTail₀
  show StableHlo.after hostOps1 _ (Proc.devRef .tc main_v7) = _
  after_results
  -- the reshape's operand is the sixth window's array, at its final contents
  have e : Pipeline.withArrays (cfgs 0).spec c (V0 m c) (fun w => (dats 0 c).arrAt w (cfgs 0).N) (Proc.devRef .tc main_v6) = Gc :=
    (Pipeline.withArrays_arr spec0 launch0.win.arr_inj c _ _ 5).trans hfin
  exact congrArg (fun G : FVec Ideal S8x1024x1024 .f32 => shapeCast S4x2048x1024 G shapeCasts_S8x1024x1024_S4x2048x1024) e

/-- The specification by chunks, reshaped to the tokens' layout, is the specification by tokens: entry `(b, s, d)` of
    the reshaped array is entry (`(b·2048 + s) / 1024`, `(b·2048 + s) % 1024`, `d`) of the array by chunks, the two having
    the same row-major position `(b·2048 + s)·1024 + d`. -/
theorem reshape_G (x : FVec Ideal S4x2048x1024 .f32) (W1 : FVec Ideal S8x1024x2048 .f32) (b1 : FVec Ideal S8x2048 .f32) (W2 : FVec Ideal S8x2048x1024 .f32) (b2 : FVec Ideal S8x1024 .f32) :
    shapeCast S4x2048x1024 (Cert.MoE.G (Cert.MoE.chunks x) W1 b1 W2 b2) shapeCasts_S8x1024x1024_S4x2048x1024 = Cert.MoE.Gout x W1 b1 W2 b2 := by
  funext i
  unfold Cert.MoE.Gout
  refine shapeCast_apply _ shapeCasts_S8x1024x1024_S4x2048x1024 i _ ?_
  rewrite [Shape.rowMajor_val_three, Shape.rowMajor_val_three]
  have h0 : (i 0).val < 4 := (i 0).isLt
  have h1 : (i 1).val < 2048 := (i 1).isLt
  have h2 : (i 2).val < 1024 := (i 2).isLt
  show (((i 0).val * 2048 + (i 1).val) / 1024 * 1024 + ((i 0).val * 2048 + (i 1).val) % 1024) * 1024 + (i 2).val
      = ((i 0).val * 2048 + (i 1).val) * 1024 + (i 2).val
  omega

end Cert.MoE.Tail

end
-- ==== Proof.KernelValue.lean ====
/-
  The kernel's result, as a function of the launched arrays.

  Grid point `t ≥ 1` writes back block `t - 1` of the result: the second layer of expert `t - 1` applied to the hidden
  activations the point before left in the scratch, which are the first layer of expert `t - 1` applied to its chunk
  of tokens.  Entry by entry that is the specification `G` at expert `t - 1`; the eight blocks written back at points
  1 to 8 tile the result, and the one host operation after the region lays the chunks back in the tokens' order.
-/
import proofs.«159461_g12489764897382_cont_sun_c4_646_20_alg».proof.Proof.Body
import proofs.«159461_g12489764897382_cont_sun_c4_646_20_alg».proof.Proof.Pay
import proofs.«159461_g12489764897382_cont_sun_c4_646_20_alg».proof.Proof.Blocks
import proofs.«159461_g12489764897382_cont_sun_c4_646_20_alg».proof.Proof.Tail
import proofs.«159461_g12489764897382_cont_sun_c4_646_20_alg».proof.Proof.Spec

set_option maxRecDepth 16384

noncomputable section

open scoped BigOperators

namespace Cert.MoE.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-- The specification at core `c`'s launched arrays, by expert, chunk row and feature. -/
abbrev Gk (c : Dev nD) : FVec Ideal S8x1024x1024 .f32 :=
  Cert.MoE.G (Cert.MoE.chunks (m ((c : Thread nD τ).loc main_arg0))) (m ((c : Thread nD τ).loc main_arg1))
    (m ((c : Thread nD τ).loc main_arg2)) (m ((c : Thread nD τ).loc main_arg3)) (m ((c : Thread nD τ).loc main_arg4))

/-- What point `n < 8` leaves in the scratch is expert `n`'s hidden layer, entry by entry. -/
theorem hval_apply (c : Dev nD) (n : ℕ) (hn : n < cfg0.N) (h8 : n < 8) (r : Fin 1024) (f : Fin 2048) :
    (hvalAt m c n hn (ix3 (0 : Fin 1) r f) : EReal)
      = Cert.MoE.hidden (Cert.MoE.chunks (m ((c : Thread nD τ).loc main_arg0))) (m ((c : Thread nD τ).loc main_arg1))
          (m ((c : Thread nD τ).loc main_arg2)) ⟨n, h8⟩ r f := by
  have e : (⟨min n 7, Blocks.lt_first ⟨n, hn⟩⟩ : Fin 8) = ⟨n, h8⟩ := Fin.ext (Nat.min_eq_left (by omega))
  unfold hvalAt
  refine (Pay.pay2_apply _ _ _ r f).trans ?_
  unfold Cert.MoE.hidden
  refine congrArg₂ max (congrArg₂ (· + ·) (Finset.sum_congr rfl fun k _ => congrArg₂ (· * ·) ?_ ?_) ?_) rfl
  · exact (Blocks.iblk0_apply m c ⟨n, hn⟩ r k).trans (by rw [e])
  · exact (Blocks.iblk1_apply m c ⟨n, hn⟩ k f).trans (by rw [e])
  · exact (Blocks.iblk2_apply m c ⟨n, hn⟩ f).trans (by rw [e])

/-- What a point that writes the result back leaves in its buffer is its block of the specification. -/
theorem flushed_eq (c : Dev nD) (t : Fin cfg0.N) (hf : (cfg0.win 5).flush t = true) :
    (dats m 0 c).flushed 5 t = ((cfg0.win 5).blk t).view.read (Elt Ideal) (Gk m c) := by
  have h1 : 1 ≤ t.val := (Blocks.flush5_iff t).mp hf
  have hN : t.val < 9 := lt_of_lt_of_eq t.isLt (show cfg0.N = 9 from N_0)
  show (cfg0.win 5).cut (grid0.coords t) ((dats m 0 c).after 5 t) = _
  rw [after0_5]
  funext y
  obtain ⟨z, r, d, rfl⟩ : ∃ (z : Fin 1) (r d : Fin 1024), y = ix3 z r d := ⟨y 0, y 1, y 2, eq_ix3 y⟩
  obtain rfl : z = 0 := Subsingleton.elim _ _
  refine Eq.trans ?_ (Blocks.blk5_read c t (Gk m c) r d).symm
  refine (Pay.pay1_apply _ _ _ r d).trans ?_
  refine congrArg₂ (· + ·) (Finset.sum_congr rfl fun f _ => congrArg₂ (· * ·) ?_ ?_) ?_
  · exact hval_apply m c (t.val - 1) _ (by omega) r f
  · exact Blocks.iblk3_apply m c t f d
  · exact Blocks.iblk4_apply m c t d

/-- The result array after the region is the specification. -/
theorem final (c : Dev nD) : (dats m 0 c).arrAt 5 cfg0.N = Gk m c :=
  (dats m 0 c).arrAt_eq_of_cover 5 (Gk m c) (fun t hf => flushed_eq m c t hf) (Blocks.cover5 c)

/-- Every weakly fair execution of @main terminates with the result at the specification in the tokens' layout and the
    arguments as launched. -/
theorem run : θ_run defs (onTc (τ := τ) (main (F := Ideal))) ⟨m, fun _ => 0, ρ⟩ (fun r => ∀ c : Dev nD,
      r.2.mem ((c.tc : Thread nD τ).loc main_v7)
        = Cert.MoE.Gout (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans
        ((Tail.tail_v7 m (dats m) c _ (final m c)).trans (Tail.reshape_G _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.MoE.KernelValue

end
-- ==== Proof.RefIsG.lean ====
/-
  The reference program is the specification.

  The reference flattens the 4 × 2048 tokens, cuts them into eight chunks of 1024 rows, sends chunk `e` through
  expert `e`'s two-layer perceptron (a batched contraction, a bias row broadcast over the rows, a maximum with
  zero, a second batched contraction and bias) and lays the rows back in the tokens' order.  Read entry by entry,
  each stage of the generated module is the corresponding piece of `Cert.MoE.G`: the two reshapes in front read the
  token `((e·1024 + r) / 2048, (e·1024 + r) % 2048)` for row `r` of chunk `e`, which is `Cert.MoE.chunks`; the
  hidden stage is `Cert.MoE.hidden`; the last sum and bias are `Cert.MoE.G`; and the two reshapes behind read
  chunk `(b·2048 + s) / 1024`, row `(b·2048 + s) % 1024` for token `(b, s)`, which is `Cert.MoE.Gout`.
-/
import proofs.«159461_g12489764897382_cont_sun_c4_646_20_alg».proof.Proof.Gen.ReferenceIdeal.Read
import proofs.«159461_g12489764897382_cont_sun_c4_646_20_alg».proof.Proof.Spec
import Idealize.ShloMosaic.Lib.ValueIdx
import Idealize.ShloMosaic.PureOps.Ideal.Laws

noncomputable section

open scoped BigOperators

namespace Cert.MoE.Ref

open Idealize.ShloMosaic Idealize.ShloMosaic.ValueIdx Cert.ReferenceIdeal Cert.ReferenceIdeal.Read

/-- The two reshapes in front of the first contraction read, for row `r` of chunk `e` and feature `k`, the flat
    position `(e·1024 + r)·1024 + k` of the tokens: token `(e·1024 + r) / 2048`, `(e·1024 + r) % 2048`, feature
    `k`.  That is the chunked view of the tokens. -/
theorem v1_eq (x0 : (⟨S4x2048x1024, .f32⟩ : BufTy).Contents (Elt Ideal)) (e : Fin 8) (r : Fin 1024) (k : Fin 1024) :
    val_main_v1 (F := Ideal) x0 (ix3 e r k) = Cert.MoE.chunks x0 (ix3 e r k) := by
  rw [val_main_v1_apply, val_main_v0_apply]
  unfold Cert.MoE.chunks
  refine congrArg x0 (funext fun a => Fin.ext ?_)
  have he : e.val < 8 := e.isLt
  have hr : r.val < 1024 := r.isLt
  have hk : k.val < 1024 := k.isLt
  match a with
  | ⟨0, _⟩ =>
    show ((((e.val * 1024 + r.val) * 1024 + k.val) / 1024) * 1024
        + ((e.val * 1024 + r.val) * 1024 + k.val) % 1024) / 2097152 = (e.val * 1024 + r.val) / 2048
    omega
  | ⟨1, _⟩ =>
    show ((((e.val * 1024 + r.val) * 1024 + k.val) / 1024) * 1024
        + ((e.val * 1024 + r.val) * 1024 + k.val) % 1024) / 1024 % 2048 = (e.val * 1024 + r.val) % 2048
    omega
  | ⟨2, _⟩ =>
    show ((((e.val * 1024 + r.val) * 1024 + k.val) / 1024) * 1024
        + ((e.val * 1024 + r.val) * 1024 + k.val) % 1024) % 1024 = k.val
    omega

/-- The hidden stage: the first contraction over the input features, the bias row of the expert broadcast over the
    chunk's rows, and the maximum with the broadcast zero, read at expert `e`, row `r`, hidden feature `f`. -/
theorem v6_eq (x0 : (⟨S4x2048x1024, .f32⟩ : BufTy).Contents (Elt Ideal))
    (x1 : (⟨S8x1024x2048, .f32⟩ : BufTy).Contents (Elt Ideal)) (x2 : (⟨S8x2048, .f32⟩ : BufTy).Contents (Elt Ideal))
    (e : Fin 8) (r : Fin 1024) (f : Fin 2048) :
    val_main_v6 (F := Ideal) x0 x1 x2 (ix3 e r f) = Cert.MoE.hidden (Cert.MoE.chunks x0) x1 x2 e r f := by
  have hl : ∀ k : Fin 1024, lidx_main_v2 (ix3 e r f) k = ix3 e r k := fun k =>
    funext fun a => Fin.ext (by match a with | ⟨0, _⟩ => rfl | ⟨1, _⟩ => rfl | ⟨2, _⟩ => rfl)
  have hr : ∀ k : Fin 1024, ridx_main_v2 (ix3 e r f) k = ix3 e k f := fun k =>
    funext fun a => Fin.ext (by match a with | ⟨0, _⟩ => rfl | ⟨1, _⟩ => rfl | ⟨2, _⟩ => rfl)
  have hb : idx_main_v3 (idx_main_v4 (ix3 e r f)) = ix2 e f :=
    funext fun a => Fin.ext (by match a with | ⟨0, _⟩ => rfl | ⟨1, _⟩ => rfl)
  rw [val_main_v6_apply, val_main_v5_apply, val_main_v2_apply, val_main_v4_apply, val_main_v3_apply,
    val_main_call0_v0_apply, val_main_call0_cst_apply, hb]
  unfold Cert.MoE.hidden
  simp only [Ideal.maximumf_def, Ideal.addf_def, Ideal.ofBits_def]
  refine congrArg (fun s => max (s + x2 (ix2 e f)) Cert.MoE.z0) (Finset.sum_congr rfl fun k _ => ?_)
  rw [hl, hr, v1_eq]

/-- The reference's result by expert, chunk row and output feature is the specification's `G` of the chunked
    tokens: the second contraction over the hidden features plus the expert's second bias row. -/
theorem v10_eq (x0 : (⟨S4x2048x1024, .f32⟩ : BufTy).Contents (Elt Ideal)) (x1 : (⟨S8x1024x2048, .f32⟩ : BufTy).Contents (Elt Ideal)) (x2 : (⟨S8x2048, .f32⟩ : BufTy).Contents (Elt Ideal)) (x3 : (⟨S8x2048x1024, .f32⟩ : BufTy).Contents (Elt Ideal)) (x4 : (⟨S8x1024, .f32⟩ : BufTy).Contents (Elt Ideal)) :
    val_main_v10 (F := Ideal) x0 x1 x2 x3 x4 = Cert.MoE.G (Cert.MoE.chunks x0) x1 x2 x3 x4 := by
  funext j
  obtain ⟨e, r, d, rfl⟩ : ∃ (e : Fin 8) (r : Fin 1024) (d : Fin 1024), j = ix3 e r d := ⟨j 0, j 1, j 2, eq_ix3 j⟩
  have hl : ∀ f : Fin 2048, lidx_main_v7 (ix3 e r d) f = ix3 e r f := fun f =>
    funext fun a => Fin.ext (by match a with | ⟨0, _⟩ => rfl | ⟨1, _⟩ => rfl | ⟨2, _⟩ => rfl)
  have hr : ∀ f : Fin 2048, ridx_main_v7 (ix3 e r d) f = ix3 e f d := fun f =>
    funext fun a => Fin.ext (by match a with | ⟨0, _⟩ => rfl | ⟨1, _⟩ => rfl | ⟨2, _⟩ => rfl)
  have hb : idx_main_v8 (idx_main_v9 (ix3 e r d)) = ix2 e d :=
    funext fun a => Fin.ext (by match a with | ⟨0, _⟩ => rfl | ⟨1, _⟩ => rfl)
  rw [Cert.MoE.G_apply, val_main_v10_apply, val_main_v7_apply, val_main_v9_apply, val_main_v8_apply, hb]
  simp only [Ideal.addf_def]
  refine congrArg (fun s => s + x4 (ix2 e d)) (Finset.sum_congr rfl fun f _ => ?_)
  rw [hl, hr, v6_eq]

/-- The reference's result in the tokens' own layout: the two reshapes behind read, for token `(b, s)` and feature
    `d`, the flat position `(b·2048 + s)·1024 + d` of the result by chunks: chunk `(b·2048 + s) / 1024`, row
    `(b·2048 + s) % 1024`, feature `d`. -/
theorem ref_eq (x0 : (⟨S4x2048x1024, .f32⟩ : BufTy).Contents (Elt Ideal)) (x1 : (⟨S8x1024x2048, .f32⟩ : BufTy).Contents (Elt Ideal)) (x2 : (⟨S8x2048, .f32⟩ : BufTy).Contents (Elt Ideal)) (x3 : (⟨S8x2048x1024, .f32⟩ : BufTy).Contents (Elt Ideal)) (x4 : (⟨S8x1024, .f32⟩ : BufTy).Contents (Elt Ideal)) :
    val_main_v12 (F := Ideal) x0 x1 x2 x3 x4 = Cert.MoE.Gout x0 x1 x2 x3 x4 := by
  funext i
  obtain ⟨b, s, d, rfl⟩ : ∃ (b : Fin 4) (s : Fin 2048) (d : Fin 1024), i = ix3 b s d := ⟨i 0, i 1, i 2, eq_ix3 i⟩
  rw [val_main_v12_apply, val_main_v11_apply, v10_eq]
  unfold Cert.MoE.Gout
  refine congrArg (Cert.MoE.G (Cert.MoE.chunks x0) x1 x2 x3 x4) (funext fun a => Fin.ext ?_)
  have hb : b.val < 4 := b.isLt
  have hs : s.val < 2048 := s.isLt
  have hd : d.val < 1024 := d.isLt
  match a with
  | ⟨0, _⟩ =>
    show ((((b.val * 2048 + s.val) * 1024 + d.val) / 1024) * 1024
        + ((b.val * 2048 + s.val) * 1024 + d.val) % 1024) / 1048576 = (b.val * 2048 + s.val) / 1024
    omega
  | ⟨1, _⟩ =>
    show ((((b.val * 2048 + s.val) * 1024 + d.val) / 1024) * 1024
        + ((b.val * 2048 + s.val) * 1024 + d.val) % 1024) / 1024 % 1024 = (b.val * 2048 + s.val) % 1024
    omega
  | ⟨2, _⟩ =>
    show ((((b.val * 2048 + s.val) * 1024 + d.val) / 1024) * 1024
        + ((b.val * 2048 + s.val) * 1024 + d.val) % 1024) % 1024 = d.val
    omega

end Cert.MoE.Ref

end
-- ==== Proof.lean ====
/-
  The certificate of the expert layer: eight experts, each a two-layer perceptron
      out[e] = relu (x[e] · W1[e] + b1[e]) · W2[e] + b2[e]
  on its own contiguous chunk of 1024 of the 8192 tokens.

  The kernel walks a grid of nine points, point `t` running the first layer of expert `t` and the second layer of expert
  `t - 1`, the hidden activations carried between points in a two-half scratch; the reference computes the same two
  batched products on the host.  On the extended reals both are the one function `Cert.MoE.Gout` of the arguments, entry
  by entry: a rounding to the narrower format is no change there, a product into a zero accumulator is the plain sum, and
  the two programs add the bias and take the maximum with zero in the same order.  No finiteness of the inputs is used.
  Both kernel programs' frames are the tracked-scratch frame run of `Proof/Body.lean` (the word-level program's copy is
  `Proof/BodyBits.lean`); the reference's frame is its run with the result dropped.
-/
import proofs.«159461_g12489764897382_cont_sun_c4_646_20_alg».proof.Defs
import proofs.«159461_g12489764897382_cont_sun_c4_646_20_alg».proof.Proof.Gen.Kernel
import proofs.«159461_g12489764897382_cont_sun_c4_646_20_alg».proof.Proof.Gen.KernelIdeal
import proofs.«159461_g12489764897382_cont_sun_c4_646_20_alg».proof.Proof.Gen.ReferenceIdeal
import proofs.«159461_g12489764897382_cont_sun_c4_646_20_alg».proof.Proof.Gen.Pre_finite_inputs
import proofs.«159461_g12489764897382_cont_sun_c4_646_20_alg».proof.Proof.Gen.ReferenceIdeal.Run
import proofs.«159461_g12489764897382_cont_sun_c4_646_20_alg».proof.Proof.Gen.ReferenceIdeal.Read
import proofs.«159461_g12489764897382_cont_sun_c4_646_20_alg».proof.Proof.Body
import proofs.«159461_g12489764897382_cont_sun_c4_646_20_alg».proof.Proof.BodyBits
import proofs.«159461_g12489764897382_cont_sun_c4_646_20_alg».proof.Proof.KernelValue
import proofs.«159461_g12489764897382_cont_sun_c4_646_20_alg».proof.Proof.RefIsG
import Idealize.ShloMosaic.Adequacy
import Idealize.ShloMosaic.Init

noncomputable section

namespace Cert.Proof

open Idealize.ShloMosaic Idealize.ShloMosaic.TcCoe Idealize.SL.Sem

namespace MoEClaims

/-- The word-level kernel runs and leaves its arguments as launched. -/
theorem frame_p : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the result at `Gout` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.MoE.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v12_eq _ _ _ _ _).trans (Cert.MoE.Ref.ref_eq _ _ _ _ _)

end MoEClaims

theorem claim : Cert.Claim := ⟨Cert.Kernel.Gen.facts, Cert.KernelIdeal.Gen.facts, Cert.ReferenceIdeal.Gen.facts, Cert.Pre_finite_inputs.Gen.facts,
  MoEClaims.frame_p, MoEClaims.frame_pi, MoEClaims.frame_ri, trivial, MoEClaims.algebraic⟩

end Cert.Proof

end
